-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S65536x512 .f32) (main_arg1 : FVec F S512x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S65536x512 : Shape := ⟨2, ![65536, 512]⟩
abbrev S512x512 : Shape := ⟨2, ![512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 15
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S_, .f32⟩
  | .hbm, ⟨3, _⟩ => ⟨S512x512, .f32⟩
  | .hbm, ⟨4, _⟩ => ⟨S512x512, .f32⟩
  | .hbm, ⟨5, _⟩ => ⟨S512x512, .bf16⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S65536x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x512 : S_.BroadcastsInDim S512x512 (![] : Fin 0 → Fin S512x512.rank)
  bitsLt_bf16_f32 : FTy.bits .bf16 < FTy.bits .f32
  reducesTo_S512x512_S512_d1 : S512x512.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  bcast_S_S1x512 : S_.BroadcastsInDim S1x512 (![] : Fin 0 → Fin S1x512.rank)
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S512x512_p1_0_S512x512 : S512x512.Transposes [1, 0] S512x512
  reduces_S2048x512_S2048 : S2048x512.Reduces [1] S2048
  shapeCasts_S2048_S2048x1 : S2048.ShapeCasts S2048x1
  broadcasts_S2048x1_S2048x512 : S2048x1.Broadcasts S2048x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S_ : Shape := ⟨0, ![]⟩
abbrev S65536 : Shape := ⟨1, ![65536]⟩
abbrev S65536x1 : Shape := ⟨2, ![65536, 1]⟩
abbrev S512 : Shape := ⟨1, ![512]⟩
abbrev S1x512 : Shape := ⟨2, ![1, 512]⟩

abbrev nBuf : Space → Nat
  | .hbm => 30
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S65536x512, .f32⟩
  | .hbm, ⟨11, _⟩ => ⟨S65536x512, .f32⟩
  | .hbm, ⟨12, _⟩ => ⟨S65536x512, .f32⟩
  | .hbm, ⟨13, _⟩ => ⟨S512x512, .f32⟩
  | .hbm, ⟨14, _⟩ => ⟨S65536x512, .f32⟩
  | .hbm, ⟨15, _⟩ => ⟨S_, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536x512, .f32⟩
  | .hbm, ⟨21, _⟩ => ⟨S65536x512, .f32⟩
  | .hbm, ⟨22, _⟩ => ⟨S_, .f32⟩
  | .hbm, ⟨23, _⟩ => ⟨S65536x512, .f32⟩
  | .hbm, ⟨24, _⟩ => ⟨S65536x512, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S65536x512, .f32⟩
  | .hbm, ⟨29, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  reducesTo_S512x512_S512_d1 : S512x512.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  transposes_S512x512_S512x512_1_0 : S512x512.Transposes [1, 0] S512x512
  bcast_S_S65536x512 : S_.BroadcastsInDim S65536x512 (![] : Fin 0 → Fin S65536x512.rank)
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.FiniteInputs.lean ====
/-
  The precondition read back: when `|x| < +∞` holds at every entry of both argument arrays (each
  `jnp.all` a reduction by `and` that came out one, the two joined by `and`), every entry is an
  extended real that is neither infinity, that is, a real number.
-/
import proofs.«413219_j71279277244876_3_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

instance : Subsingleton S_.Idx := ⟨fun _ _ => funext fun d => d.elim0⟩

/-- The f32 word `0x7F800000` is plus infinity. -/
theorem ofBits_inf_f32 : Ideal.ofBits .f32 0x7F800000#32 = ⊤ := by simp [Ideal.ofBits, Ideal.ieee]

/-- An extended real whose absolute value is below plus infinity is neither infinity. -/
theorem real_of_abs_lt (x : EReal)
    (h : Ideal.cmp .olt (max x (-x)) (Ideal.ofBits .f32 0x7F800000#32) = 1#1) : x ≠ ⊤ ∧ x ≠ ⊥ := by
  rw [ofBits_inf_f32] at h
  change BitVec.ofBool (decide (max x (-x) < ⊤)) = 1#1 at h
  have hlt : max x (-x) < ⊤ := by
    by_contra hn
    rw [decide_eq_false hn] at h
    exact absurd h (by decide)
  constructor
  · rintro rfl; simp at hlt
  · rintro rfl; simp at hlt

variable [Facts]

/-- Under the printed precondition every entry of both arrays is a real number. -/
theorem finite_of_pre (x : FVec Ideal S65536x512 .f32) (c : FVec Ideal S512x512 .f32)
    (h : fn (F := Ideal) x c = fun _ => 1#1) :
    (∀ i, x i ≠ ⊤ ∧ x i ≠ ⊥) ∧ (∀ i, c i ≠ ⊤ ∧ c i ≠ ⊥) := by
  have h0 := congrFun h ValueIdx.ix0
  dsimp only [fn] at h0
  obtain ⟨h1, h2⟩ := IntOp.andi_eq_one.1 h0
  exact ⟨fun i => real_of_abs_lt _ (Host.reduce_andi_all _ _ _ _ _ h1 i),
    fun i => real_of_abs_lt _ (Host.reduce_andi_all _ _ _ _ _ h2 i)⟩

end Cert.FiniteInputs

end
-- ==== Proof.DistanceLaw.lean ====
/-
  The algebra of the soft cluster assignment, on the extended reals, with no program in sight.

  For a row `a` of the data and the rows `C k` of the centroid table (all entries real numbers), the
  squared distance plus one is written in two ways:
    the reference's   1 + ((Σ a² + Σ b²) − 2 · Σ a·b),
    the kernel's      (Σ a² + (1 + Σ b²)) − Σ a·(2·b),
  and both are the real number  1 + Σ (a − b)²,  which is at least one. So the kernel's clamp
  `max · 1` changes nothing, the Student-t weight `1 / (1 + d²)` is a positive real on both sides,
  the row sum of the weights is a positive real, and multiplying by the reciprocal of that sum is
  dividing by it.  Distributivity and cancellation are used, so the entries must be real: the laws
  are stated for extended reals that are neither infinity.
-/
import Idealize.ShloMosaic.PureOps.Ideal.Laws
import Idealize.ShloMosaic.Lib.IdealHost

noncomputable section

namespace Cert.DistanceLaw

open Idealize.ShloMosaic

/-- The f32 word `0x40000000` is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- A finite sum of reals, read in the extended reals, is the sum of the terms read there. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {n K : ℕ}

/-- One plus the squared distance of two real rows. -/
def dist1 (a b : Fin n → ℝ) : ℝ := 1 + ∑ d, (a d - b d) ^ 2

theorem one_le_dist1 (a b : Fin n → ℝ) : 1 ≤ dist1 a b :=
  le_add_of_nonneg_right (Finset.sum_nonneg fun d _ => sq_nonneg _)

/-- The squared distance expanded: the two squared norms less twice the inner product. -/
theorem dist1_expand (a b : Fin n → ℝ) :
    dist1 a b = 1 + ((∑ d, a d * a d) + (∑ d, b d * b d) - 2 * ∑ d, a d * b d) := by
  unfold dist1
  rw [Finset.mul_sum, ← Finset.sum_add_distrib, ← Finset.sum_sub_distrib]
  exact congrArg (1 + ·) (Finset.sum_congr rfl fun d _ => by ring)

/-- The reference's spelling of one plus the squared distance: each host sum starts from zero. -/
def refT (a b : Fin n → EReal) : EReal :=
  1 + (((0 + ∑ d, a d * a d) + (0 + ∑ d, b d * b d)) - 2 * ∑ d, a d * b d)

/-- The kernel's spelling: the one folded into the centroid's squared norm, the two into the table. -/
def kerT (a b : Fin n → EReal) : EReal :=
  ((∑ d, a d * a d) + (1 + (0 + ∑ d, b d * b d))) - ∑ d, a d * (2 * b d)

theorem refT_coe (a b : Fin n → ℝ) : refT (fun d => (a d : EReal)) (fun d => (b d : EReal)) = (dist1 a b : EReal) := by
  unfold refT
  rw [show (2 : EReal) = ((2 : ℝ) : EReal) by norm_cast]
  simp only [← EReal.coe_mul, ← coe_sum]
  rw [dist1_expand]
  norm_cast
  ring

theorem kerT_coe (a b : Fin n → ℝ) : kerT (fun d => (a d : EReal)) (fun d => (b d : EReal)) = (dist1 a b : EReal) := by
  unfold kerT
  rw [show (2 : EReal) = ((2 : ℝ) : EReal) by norm_cast]
  simp only [← EReal.coe_mul, ← coe_sum]
  rw [dist1_expand]
  norm_cast
  have e : ∑ d, a d * (2 * b d) = 2 * ∑ d, a d * b d := by
    rw [Finset.mul_sum]; exact Finset.sum_congr rfl fun d _ => by ring
  rw [e]; ring

/-- The reference's result at column `q`: the weight over the row's sum of weights. -/
def refOut (a : Fin n → EReal) (C : Fin K → Fin n → EReal) (q : Fin K) : EReal :=
  Ideal.div (Ideal.div 1 (refT a (C q))) (0 + ∑ k, Ideal.div 1 (refT a (C k)))

/-- The kernel's result at column `q`: the clamped weight times the reciprocal of the row's sum. -/
def kerOut (a : Fin n → EReal) (C : Fin K → Fin n → EReal) (q : Fin K) : EReal :=
  Ideal.div 1 (max (kerT a (C q)) 1) * Ideal.div 1 (∑ k, Ideal.div 1 (max (kerT a (C k)) 1))

/-- The weight `1 / t` of a real `t ≥ 1` is the real `1 / t`. -/
theorem div_one_coe {t : ℝ} (ht : 1 ≤ t) : Ideal.div 1 (t : EReal) = ((1 / t : ℝ) : EReal) := by
  rw [Ideal.div_coe (by linarith : t ≠ 0), one_mul]

/-- On real entries the kernel's result is the reference's. -/
theorem kerOut_eq_refOut (hK : 0 < K) (a : Fin n → EReal) (C : Fin K → Fin n → EReal)
    (ha : ∀ d, a d ≠ ⊤ ∧ a d ≠ ⊥) (hC : ∀ k d, C k d ≠ ⊤ ∧ C k d ≠ ⊥) (q : Fin K) :
    kerOut a C q = refOut a C q := by
  obtain ⟨ar, rfl⟩ : ∃ ar : Fin n → ℝ, a = fun d => ((ar d : ℝ) : EReal) :=
    ⟨fun d => (a d).toReal, funext fun d => (EReal.coe_toReal (ha d).1 (ha d).2).symm⟩
  obtain ⟨Cr, rfl⟩ : ∃ Cr : Fin K → Fin n → ℝ, C = fun k d => ((Cr k d : ℝ) : EReal) :=
    ⟨fun k d => (C k d).toReal, funext fun k => funext fun d => (EReal.coe_toReal (hC k d).1 (hC k d).2).symm⟩
  unfold kerOut refOut
  simp only [kerT_coe, refT_coe]
  have hmax : ∀ k, max ((dist1 ar (Cr k) : ℝ) : EReal) 1 = ((dist1 ar (Cr k) : ℝ) : EReal) := fun k =>
    max_eq_left (by exact_mod_cast one_le_dist1 ar (Cr k))
  simp only [hmax, div_one_coe (one_le_dist1 ar _), zero_add, ← coe_sum]
  refine Ideal.mul_one_div ?_
  have hpos : 0 < ∑ k, 1 / dist1 ar (Cr k) := by
    haveI : Nonempty (Fin K) := ⟨⟨0, hK⟩⟩
    exact Finset.sum_pos (fun k _ => one_div_pos.mpr (lt_of_lt_of_le one_pos (one_le_dist1 ar (Cr k)))) Finset.univ_nonempty
  exact_mod_cast hpos.ne'

/-- THE RESULT both programs compute, as one function of the two argument arrays: at `(r, q)` the weight of
    centroid `q` for data row `r` over the sum of that row's weights (the reference's spelling). -/
def softAssign (x : (⟨2, ![65536, 512]⟩ : Shape).Idx → EReal) (c : (⟨2, ![512, 512]⟩ : Shape).Idx → EReal) :
    (⟨2, ![65536, 512]⟩ : Shape).Idx → EReal :=
  fun i => refOut (fun d : Fin 512 => x (ValueIdx.ix2 (n0 := 65536) (n1 := 512) (i 0) d))
    (fun (k d : Fin 512) => c (ValueIdx.ix2 k d)) (i 1)

theorem softAssign_apply (x : (⟨2, ![65536, 512]⟩ : Shape).Idx → EReal) (c : (⟨2, ![512, 512]⟩ : Shape).Idx → EReal)
    (r : Fin 65536) (q : Fin 512) :
    softAssign x c (ValueIdx.ix2 r q) = refOut (fun d : Fin 512 => x (ValueIdx.ix2 r d)) (fun (k d : Fin 512) => c (ValueIdx.ix2 k d)) q := rfl

end Cert.DistanceLaw

end
-- ==== Proof.ReferenceValue.lean ====
/-
  The reference, read index by index: its result at `(r, q)` is the weight `1 / (1 + d²)` of centroid `q` for
  data row `r` over the sum of the row's weights, with `1 + d²` spelt as the two squared norms less twice the
  inner product. This is the function `softAssign` of the two argument arrays, with no condition on them.
-/
import proofs.«413219_j71279277244876_3_alg».proof.Proof.Gen.ReferenceIdeal.Read
import proofs.«413219_j71279277244876_3_alg».proof.Proof.DistanceLaw

noncomputable section

namespace Cert.ReferenceValue

open Cert.ReferenceIdeal Cert.ReferenceIdeal.Gen Cert.ReferenceIdeal.Read Idealize.ShloMosaic Idealize.ShloMosaic.ValueIdx
open Cert.DistanceLaw

/-- The squared norm of data row `r` is summed over the entries `(r, d)`. -/
theorem idx_rowx (r : Fin 65536) (q : Fin 512) (d : Fin 512) :
    idx_main_v1 (idx_main_v2 (idx_main_v6 (ix2 r q))) d = ix2 r d :=
  funext fun a => by match a with | ⟨0, _⟩ => rfl | ⟨1, _⟩ => rfl

/-- The squared norm of centroid `q` is summed over the entries `(q, d)`. -/
theorem idx_rowc (r : Fin 65536) (q : Fin 512) (d : Fin 512) :
    idx_main_v4 (idx_main_v5 (idx_main_v7 (ix2 r q))) d = ix2 q d :=
  funext fun a => by match a with | ⟨0, _⟩ => rfl | ⟨1, _⟩ => rfl

/-- The inner product's left factor is the data entry `(r, d)`, -/
theorem idx_dotl (r : Fin 65536) (q : Fin 512) (d : Fin 512) : lidx_main_v10 (ix2 r q) d = ix2 r d :=
  funext fun a => by match a with | ⟨0, _⟩ => rfl | ⟨1, _⟩ => rfl

/-- and its right factor, through the transpose, the centroid entry `(q, d)`. -/
theorem idx_dotr (r : Fin 65536) (q : Fin 512) (d : Fin 512) : idx_main_v9 (ridx_main_v10 (ix2 r q) d) = ix2 q d :=
  funext fun a => by match a with | ⟨0, _⟩ => rfl | ⟨1, _⟩ => rfl

/-- The row's weights are summed over the entries `(r, k)`. -/
theorem idx_roww (r : Fin 65536) (q : Fin 512) (k : Fin 512) :
    idx_main_v18 (idx_main_v19 (idx_main_v20 (ix2 r q))) k = ix2 r k :=
  funext fun a => by match a with | ⟨0, _⟩ => rfl | ⟨1, _⟩ => rfl

variable (x : (⟨S65536x512, .f32⟩ : BufTy).Contents (Elt Ideal)) (c : (⟨S512x512, .f32⟩ : BufTy).Contents (Elt Ideal))

/-- One plus the squared distance, as the reference spells it. -/
theorem onePlusDist_at (r : Fin 65536) (q : Fin 512) :
    val_main_v15 (F := Ideal) x c (ix2 r q) = refT (fun d : Fin 512 => x (ix2 r d)) (fun d : Fin 512 => c (ix2 q d)) := by
  rw [val_main_v15_apply, val_main_v14_apply, val_main_cst_2_apply, val_main_v13_apply, val_main_v8_apply,
    val_main_v6_apply, val_main_v2_apply, val_main_v1_apply, val_main_cst_apply,
    val_main_v7_apply, val_main_v5_apply, val_main_v4_apply, val_main_cst_0_apply,
    val_main_v12_apply, val_main_v11_apply, val_main_cst_1_apply, val_main_v10_apply]
  simp only [val_main_v0_apply, val_main_v3_apply, val_main_v9_apply, idx_rowx, idx_rowc, idx_dotl, idx_dotr,
    Ideal.addf_def, Ideal.subf_def, Ideal.mulf_def, Ideal.ofBits_def, Ideal.ofBits_one_f32, Ideal.ofBits_zero_f32,
    ofBits_two_f32]
  rfl

/-- The Student-t weight at `(r, q)`. -/
theorem weight_at (r : Fin 65536) (q : Fin 512) :
    val_main_v17 (F := Ideal) x c (ix2 r q)
      = Ideal.div 1 (refT (fun d : Fin 512 => x (ix2 r d)) (fun d : Fin 512 => c (ix2 q d))) := by
  rw [val_main_v17_apply, val_main_v16_apply, val_main_cst_3_apply, onePlusDist_at]
  simp only [Ideal.hostDivf_def, Ideal.ofBits_def, Ideal.ofBits_one_f32]

/-- THE REFERENCE'S RESULT is `softAssign` of the argument arrays. -/
theorem result_eq : val_main_v21 (F := Ideal) x c = softAssign x c := by
  funext i
  obtain ⟨r, q, rfl⟩ : ∃ (r : Fin 65536) (q : Fin 512), i = ix2 r q := ⟨i 0, i 1, eq_ix2 i⟩
  rw [val_main_v21_apply, val_main_v20_apply, val_main_v19_apply, val_main_v18_apply, val_main_cst_4_apply, weight_at]
  simp only [idx_roww, weight_at, Ideal.hostDivf_def, Ideal.ofBits_def, Ideal.ofBits_zero_f32]
  rfl

end Cert.ReferenceValue

end
-- ==== Proof.LibKeepdims.lean ====
/-
  General lemmas for a row reduction kept as a column (`jnp.sum(axis=1, keepdims=True)`): the cast of a
  length-`a` vector to an `[a, 1]` column read at an index, such a column broadcast across `b` lanes read at
  an index, and, at the ideal values, a float sum over axis 1 of an `[a, b]` array read at a row as the sum
  over the row's entries.  Stated over literal coordinates built by `ix1` / `ix2`.
-/
import Idealize.ShloMosaic.Lib.ValueIdx
import Idealize.ShloMosaic.Lib.Pipeline.Value
import Idealize.ShloMosaic.PureOps.Ideal.Laws

noncomputable section

namespace Idealize.ShloMosaic.ValueIdx

open Idealize.ShloMosaic

variable {α : Type}

/-- A length-`a` vector cast to an `[a, 1]` column reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- At the ideal values a float sum over axis 1 of an `[a, b]` array, read at row `i`, is the sum over `d` of the
    entries `(i, d)`. The accumulator's evidence is taken as the equation of words a printed body carries. -/
theorem rowSum_apply {a b : ℕ} (y : FVec Ideal ⟨2, ![a, b]⟩ .f32) (h : Shape.Reduces ⟨2, ![a, b]⟩ [1] ⟨1, ![a]⟩)
    (hφ : FKind.Formats .f32) (hacc : (0x00000000#32 : BitVec 32) = 0x00000000#32) (i : Fin a) :
    multiReduction .add [1] ⟨1, ![a]⟩ y 0x00000000#32 h hφ hacc (ix1 i) = ∑ d : Fin b, y (ix2 i d) := by
  refine (Ideal.multiReduction_add_single y 0x00000000#32 h hφ hacc (ix1 i)).trans ?_
  refine Finset.sum_congr rfl fun d _ => congrArg y ?_
  funext c
  apply Fin.ext
  match c with
  | ⟨0, _⟩ => rfl
  | ⟨1, _⟩ => rfl

end Idealize.ShloMosaic.ValueIdx

end
-- ==== Proof.BodyValue.lean ====
/-
  The kernel body's one store, read at an index of its block. At `(p, q)` of the [2048, 512] output block the body
  holds the clamped weight of centroid `q` for the block's data row `p`, times the reciprocal of the row's sum of
  clamped weights, where one plus the squared distance is: the row's squared norm (a lane sum), plus the
  resident `1 + |c_q|²` entry, less the row's product with the resident doubled table (a matrix product with
  the table transposed, read as a sum over the contracted coordinate).
-/
import proofs.«413219_j71279277244876_3_alg».proof.Proof.Gen.KernelIdeal.Skeleton
import proofs.«413219_j71279277244876_3_alg».proof.Proof.LibKeepdims
import proofs.«413219_j71279277244876_3_alg».proof.Proof.DistanceLaw
import Idealize.ShloMosaic.Lib.ValueLayout

noncomputable section

namespace Cert.BodyValue

open Cert.KernelIdeal Cert.KernelIdeal.Gen Idealize.ShloMosaic Idealize.ShloMosaic.ValueIdx

/-! ## The matrix product with the transposed table -/

theorem lhs_dot_0 (i : S2048x512.Idx) (k : dot_S2048x512_S512x512_S2048x512_1_0_0_1_n_n.contr.Idx) :
    (dot_S2048x512_S512x512_S2048x512_1_0_0_1_n_n.lhsIdx i k 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_dot_1 (i : S2048x512.Idx) (k : dot_S2048x512_S512x512_S2048x512_1_0_0_1_n_n.contr.Idx) :
    (dot_S2048x512_S512x512_S2048x512_1_0_0_1_n_n.lhsIdx i k 1).val = (k ⟨0, by decide⟩).val :=
  dot_S2048x512_S512x512_S2048x512_1_0_0_1_n_n.lhsIdx_val_of_single rfl i k
theorem rhs_dot_0 (i : S2048x512.Idx) (k : dot_S2048x512_S512x512_S2048x512_1_0_0_1_n_n.contr.Idx) :
    (dot_S2048x512_S512x512_S2048x512_1_0_0_1_n_n.rhsIdx i k 0).val = (k ⟨0, by decide⟩).val :=
  dot_S2048x512_S512x512_S2048x512_1_0_0_1_n_n.rhsIdx_val_of_single rfl i k
theorem rhs_dot_1 (i : S2048x512.Idx) (k : dot_S2048x512_S512x512_S2048x512_1_0_0_1_n_n.contr.Idx) :
    (dot_S2048x512_S512x512_S2048x512_1_0_0_1_n_n.rhsIdx i k 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product of a [2048, 512] block with the transpose of a [512, 512] table, into a zero accumulator, at
    `(p, q)`: the sum over `d` of the block's `(p, d)` times the table's `(q, d)`. -/
theorem matmulT_apply (l : FVec Ideal S2048x512 .bf16) (r : FVec Ideal S512x512 .bf16)
    (h : S512x512.Transposes [1, 0] S512x512) (p : Fin 2048) (q : Fin 512) :
    matmul dot_S2048x512_S512x512_S2048x512_1_0_0_1_n_n none l (transpose S512x512 [1, 0] r h) (constant S2048x512 .f32 0x00000000#32) (ix2 p q)
      = ∑ d : Fin 512, l (ix2 p d) * r (ix2 q d) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun d _ => ?_
  have hd := ValueIdx.contrEquiv1_symm_val dot_S2048x512_S512x512_S2048x512_1_0_0_1_n_n 512 rfl rfl d
  have el : dot_S2048x512_S512x512_S2048x512_1_0_0_1_n_n.lhsIdx (ix2 p q) ((ValueIdx.contrEquiv1 dot_S2048x512_S512x512_S2048x512_1_0_0_1_n_n 512 rfl rfl).symm d) = ix2 p d := funext fun a => Fin.ext (by
    match a with
    | ⟨0, _⟩ => exact lhs_dot_0 _ _
    | ⟨1, _⟩ => exact (lhs_dot_1 _ _).trans hd)
  have er : dot_S2048x512_S512x512_S2048x512_1_0_0_1_n_n.rhsIdx (ix2 p q) ((ValueIdx.contrEquiv1 dot_S2048x512_S512x512_S2048x512_1_0_0_1_n_n 512 rfl rfl).symm d) = ix2 d q := funext fun a => Fin.ext (by
    match a with
    | ⟨0, _⟩ => exact (rhs_dot_0 _ _).trans hd
    | ⟨1, _⟩ => exact rhs_dot_1 _ _)
  rw [el, er, transpose_ix2_apply]

/-! ## The body's result at an index -/

variable {n K : ℕ}

/-- One plus the squared distance as the body assembles it, from the data row `a`, a row `b` of the resident
    doubled table and the resident entry `s`. -/
def bodyT (a b : Fin n → EReal) (s : EReal) : EReal := ((∑ d, a d * a d) + s) - ∑ d, a d * b d

/-- The body's result at column `q`. -/
def bodyOut (a : Fin n → EReal) (B : Fin K → Fin n → EReal) (s : Fin K → EReal) (q : Fin K) : EReal :=
  Ideal.div 1 (max (bodyT a (B q) (s q)) 1) * Ideal.div 1 (∑ k, Ideal.div 1 (max (bodyT a (B k) (s k)) 1))

theorem scalar_ofBits_one : Scalar.ofBits (F := Ideal) .f32 0x3F800000#32 = (1 : EReal) := Ideal.ofBits_one_f32

/-- THE BODY'S STORE at `(p, q)` of its block, from the three loaded blocks. -/
theorem payload_apply (v0 : FVec Ideal S2048x512 .f32) (v1 : FVec Ideal S512x512 .bf16) (v3 : FVec Ideal S1x512 .f32)
    (p : Fin 2048) (q : Fin 512) :
    k0_pay1 (F := Ideal) v0 v1 v3 (ix2 p q)
      = bodyOut (fun d : Fin 512 => v0 (ix2 p d)) (fun (k d : Fin 512) => v1 (ix2 k d)) (fun k : Fin 512 => v3 (ix2 (0 : Fin 1) k)) q := by
  unfold k0_pay1
  simp only [mulf_apply, divf_apply, maximumf_apply, subf_apply, addf_apply, broadcast_apply, truncf_apply,
    shapeCast_self, broadcastTo_a1_ab_apply, shapeCast_a_a1_apply, broadcastTo_1b_ab_apply, scalar_ofBits_one]
  rw [rowSum_apply, matmulT_apply, rowSum_apply]
  unfold bodyOut bodyT
  refine congrArg₂ (· * ·) rfl (congrArg (Ideal.div 1) (Finset.sum_congr rfl fun k _ => ?_))
  simp only [mulf_apply, divf_apply, maximumf_apply, subf_apply, addf_apply, broadcast_apply, truncf_apply,
    broadcastTo_a1_ab_apply, shapeCast_a_a1_apply, broadcastTo_1b_ab_apply]
  rw [rowSum_apply, matmulT_apply]
  rfl

end Cert.BodyValue

end
-- ==== Proof.KernelValue.lean ====
/-
  The kernel's result array. The region finds, beside the data, two resident arrays the host prefix wrote: the
  centroid table doubled (the narrowing to bf16 is the identity on the extended reals), and the row of
  `1 + |c_k|²`. Grid point `t` sees rows `2048·t … 2048·t + 2047` of the data and both resident arrays whole, and
  writes back, at `(p, q)` of its block, the body's result for data row `2048·t + p` and centroid `q`. On real
  entries that is `softAssign` at `(2048·t + p, q)` (the distance law), and the 32 blocks cover the array, so the
  result array ends holding `softAssign` of the two argument arrays.
-/
import proofs.«413219_j71279277244876_3_alg».proof.Proof.Gen.KernelIdeal.Value
import proofs.«413219_j71279277244876_3_alg».proof.Proof.BodyValue
import proofs.«413219_j71279277244876_3_alg».proof.Proof.DistanceLaw
import Idealize.ShloMosaic.Lib.Pipeline.Value
import Idealize.ShloMosaic.Lib.StableHlo.Run
import Idealize.ShloMosaic.Lib.IdealHost
import Idealize.ShloMosaic.Lib.ValueLayout

noncomputable section

namespace Cert.KernelValue

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.DistanceLaw Cert.BodyValue

variable (m : (ℓ : Loc nD τ sig) → Buf (Elt Ideal) ℓ) (ρ : Dev nD → PrngReg)

theorem hz : (![0, 0] : Fin 2 → Nat) = fun _ => 0 := funext fun a => by fin_cases a <;> rfl

/-- The data array and the centroid table as launched, by their literal types. -/
abbrev xarr (c : Dev nD) : FVec Ideal S65536x512 .f32 := m ((c : Thread nD τ).loc main_arg0)
abbrev carr (c : Dev nD) : FVec Ideal S512x512 .f32 := m ((c : Thread nD τ).loc main_arg1)

/-! ## The two resident arrays the host prefix wrote -/

/-- The host's sum over axis 1 of a [512, 512] array, at row `k`: the initial value plus the row's entries. -/
theorem hostRowSum_apply (y : FVec Ideal S512x512 .f32) (init : FVec Ideal S_ .f32) (k : Fin 512) :
    Host.reduceAdd y init reducesTo_S512x512_S512_d1 h_S_ (ix1 k) = init (Shape.Idx.first h_S_) + ∑ d : Fin 512, y (ix2 k d) := by
  simp only [Host.reduceAdd, Ideal.hostReduceAdd_def]
  rw [Ideal.hostReduceAdd_single reducesTo_S512x512_S512_d1 (by decide)]
  refine congrArg (_ + ·) (Finset.sum_congr rfl fun d _ => ?_)
  exact congrArg y (funext fun a => Fin.ext (by match a with | ⟨0, _⟩ => rfl | ⟨1, _⟩ => rfl))

/-- The resident table is the centroid table doubled and narrowed. -/
theorem table_eq (c : Dev nD) : (V m c main_v2 : S512x512.Idx → EReal)
    = truncf .bf16 (mulf (broadcastInDim S512x512 ![] bcast_S_S512x512 (constant (F := Ideal) S_ .f32 0x40000000#32)) (carr m c)) bitsLt_bf16_f32 := by
  dsimp only [V, hostOps0]; after_results <;> rfl

/-- At `(k, d)` it holds twice the centroid entry. -/
theorem table_apply (c : Dev nD) (k d : Fin 512) :
    (V m c main_v2 : S512x512.Idx → EReal) (ix2 k d) = 2 * carr m c (ix2 k d) := by
  rw [table_eq]
  show (broadcastInDim S512x512 ![] bcast_S_S512x512 (constant (F := Ideal) S_ .f32 0x40000000#32)) (ix2 k d) * carr m c (ix2 k d) = _
  rw [broadcastInDim_scalar_apply, constant_apply, ofBits_two_f32]

/-- The resident row is one plus the squared norms of the centroids, laid along the lanes. -/
theorem norms_eq (c : Dev nD) : (V m c main_v8 : S1x512.Idx → EReal)
    = addf (broadcastInDim S1x512 ![] bcast_S_S1x512 (constant (F := Ideal) S_ .f32 0x3F800000#32))
        (transpose S1x512 [1, 0] (broadcastInDim S512x1 ![0] bcast_S512_S512x1_0
          (Host.reduceAdd (F := Ideal) (mulf (carr m c) (carr m c)) (constant (F := Ideal) S_ .f32 0x00000000#32) reducesTo_S512x512_S512_d1 h_S_))
          transposes_S512x1_S1x512_1_0) := by
  dsimp only [V, hostOps0]; after_results <;> rfl

/-- At lane `k` it holds one plus the host's sum of the squares of centroid `k`'s entries. -/
theorem norms_apply (c : Dev nD) (k : Fin 512) :
    (V m c main_v8 : S1x512.Idx → EReal) (ix2 (0 : Fin 1) k) = 1 + (0 + ∑ d : Fin 512, carr m c (ix2 k d) * carr m c (ix2 k d)) := by
  rw [norms_eq, addf_apply, broadcastInDim_scalar_apply, constant_apply, Ideal.ofBits_one_f32, transpose_ix2_apply,
    broadcastInDim_apply _ bcast_S512_S512x1_0 _ (ix2 k (0 : Fin 1)) (ix1 k) (fun a => match a with
      | ⟨0, _⟩ => by show k.val = if (512 : Nat) = 1 then 0 else k.val; rw [if_neg (by decide)]),
    hostRowSum_apply, constant_apply, Ideal.ofBits_zero_f32]
  rfl

/-! ## The blocks a grid point sees -/

/-- The printed index maps over the grid: the data and the result move one block of rows per point, the resident
    arrays stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The data row that row `p` of point `t`'s block is. -/
def rowOf (t : Fin cfg0.N) (p : Fin 2048) : Fin 65536 :=
  ⟨t.val * 2048 + p.val, by have := t.isLt; have hN : cfg0.N = 32 := N_0; have := p.isLt; omega⟩

/-- The data block at point `t` is rows `2048·t …` of the data array as launched. -/
theorem iblk0_apply (c : Dev nD) (t : Fin cfg0.N) (p : Fin 2048) (d : Fin 512) :
    (iblk m c 0 t : Vec Ideal S2048x512 .f32) (ix2 p d) = xarr m c (ix2 (rowOf t p) d) := by
  obtain ⟨e0, e1, -⟩ := idx_facts t
  unfold iblk
  rw [View.read_apply]
  refine (congrFun (V_main_arg0 m c) _).trans (congrArg (xarr m c) (funext fun a => Fin.ext ?_))
  match a with
  | ⟨0, _⟩ => show win0_0.index t (0 : Fin 2) * 2048 + 1 * p.val = t.val * 2048 + p.val; rw [e0]; omega
  | ⟨1, _⟩ => show win0_0.index t (1 : Fin 2) * 512 + 1 * d.val = d.val; rw [e1]; omega

/-- The resident table's block at any point is the whole table. -/
theorem iblk1_apply (c : Dev nD) (t : Fin cfg0.N) (k d : Fin 512) :
    (iblk m c 1 t : Vec Ideal S512x512 .bf16) (ix2 k d) = (V m c main_v2 : S512x512.Idx → EReal) (ix2 k d) := by
  obtain ⟨-, -, e0, e1, -⟩ := idx_facts t
  unfold iblk
  rw [View.read_apply]
  refine congrArg (V m c main_v2 : S512x512.Idx → EReal) (funext fun a => Fin.ext ?_)
  match a with
  | ⟨0, _⟩ => show win0_1.index t (0 : Fin 2) * 512 + 1 * k.val = k.val; rw [e0]; omega
  | ⟨1, _⟩ => show win0_1.index t (1 : Fin 2) * 512 + 1 * d.val = d.val; rw [e1]; omega

/-- The resident row's block at any point is the whole row. -/
theorem iblk2_apply (c : Dev nD) (t : Fin cfg0.N) (u : Fin 1) (k : Fin 512) :
    (iblk m c 2 t : Vec Ideal S1x512 .f32) (ix2 u k) = (V m c main_v8 : S1x512.Idx → EReal) (ix2 u k) := by
  obtain ⟨-, -, -, -, e0, e1, -⟩ := idx_facts t
  unfold iblk
  rw [View.read_apply]
  refine congrArg (V m c main_v8 : S1x512.Idx → EReal) (funext fun a => Fin.ext ?_)
  match a with
  | ⟨0, _⟩ => show win0_2.index t (0 : Fin 2) * 1 + 1 * u.val = u.val; rw [e0]; omega
  | ⟨1, _⟩ => show win0_2.index t (1 : Fin 2) * 512 + 1 * k.val = k.val; rw [e1]; omega

/-- Entry `(p, q)` of point `t`'s result block is entry `(2048·t + p, q)` of the result array. -/
theorem emb3 (t : Fin cfg0.N) (p : Fin 2048) (q : Fin 512) :
    ((cfg0.win 3).blk t).view.emb (ix2 p q) = (ix2 (rowOf t p) q : S65536x512.Idx) := by
  obtain ⟨-, -, -, -, -, -, e0, e1⟩ := idx_facts t
  funext a
  apply Fin.ext
  match a with
  | ⟨0, _⟩ => show win0_3.index t (0 : Fin 2) * 2048 + 1 * p.val = t.val * 2048 + p.val; rw [e0]; omega
  | ⟨1, _⟩ => show win0_3.index t (1 : Fin 2) * 512 + 1 * q.val = q.val; rw [e1]; omega

/-! ## What a point writes back, the cover, the final array -/

/-- The body's result for data row `r`, from the data array and the centroid table as launched, is the kernel's
    spelling of the soft assignment: the doubled table and the `1 + |c|²` row are what the host prefix left. -/
theorem bodyOut_eq_kerOut (a : Fin 512 → EReal) (C : Fin 512 → Fin 512 → EReal) (q : Fin 512) :
    bodyOut a (fun k d => 2 * C k d) (fun k => 1 + (0 + ∑ d : Fin 512, C k d * C k d)) q = kerOut a C q := rfl

/-- WHAT POINT `t` WRITES BACK is block `t` of `softAssign` of the argument arrays, when their entries are real. -/
theorem flushed_eq (c : Dev nD) (hx : ∀ i, xarr m c i ≠ ⊤ ∧ xarr m c i ≠ ⊥) (hc : ∀ i, carr m c i ≠ ⊤ ∧ carr m c i ≠ ⊥)
    (t : Fin cfg0.N) :
    (dats m 0 c).flushed 3 t = ((cfg0.win 3).blk t).view.read (Elt Ideal) (softAssign (xarr m c) (carr m c)) := by
  rw [flushed3]
  unfold out0_3
  rw [View.canon_unit_zero hz]
  simp only [View.ld_unit_zero (S := S2048x512) hz, View.ld_unit_zero (S := S512x512) hz, View.ld_unit_zero (S := S1x512) hz]
  funext j
  obtain ⟨p, q, rfl⟩ : ∃ (p : Fin 2048) (q : Fin 512), j = ix2 p q := ⟨j 0, j 1, eq_ix2 j⟩
  show k0_pay1 (F := Ideal) (iblk m c 0 t) (iblk m c 1 t) (iblk m c 2 t) (ix2 p q)
    = softAssign (xarr m c) (carr m c) (((cfg0.win 3).blk t).view.emb (ix2 p q))
  rw [emb3 t p q, softAssign_apply]
  refine (payload_apply (iblk m c 0 t) (iblk m c 1 t) (iblk m c 2 t) p q).trans ?_
  have h0 : (fun d : Fin 512 => (iblk m c 0 t : Vec Ideal S2048x512 .f32) (ix2 p d)) = fun d => xarr m c (ix2 (rowOf t p) d) :=
    funext fun d => iblk0_apply m c t p d
  have h1 : (fun (k d : Fin 512) => (iblk m c 1 t : Vec Ideal S512x512 .bf16) (ix2 k d)) = fun k d => 2 * carr m c (ix2 k d) :=
    funext fun k => funext fun d => (iblk1_apply m c t k d).trans (table_apply m c k d)
  have h2 : (fun k : Fin 512 => (iblk m c 2 t : Vec Ideal S1x512 .f32) (ix2 (0 : Fin 1) k))
      = fun k => 1 + (0 + ∑ d : Fin 512, carr m c (ix2 k d) * carr m c (ix2 k d)) :=
    funext fun k => (iblk2_apply m c t 0 k).trans (norms_apply m c k)
  rw [h0, h1, h2, bodyOut_eq_kerOut (fun d => xarr m c (ix2 (rowOf t p) d)) (fun k d => carr m c (ix2 k d)) q]
  exact kerOut_eq_refOut (by decide) _ _ (fun d => hx _) (fun k d => hc _) q

/-- An index of the result array is in point `t`'s block iff each coordinate is in the block's range on its axis. -/
theorem mem_blk (t : Fin cfg0.N) (i : S65536x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v9).slice (win0_3.rect t)).set ↔ _
  rw [View.set_slice_whole, Rect.mem_set_unit]
  exact Iff.rfl

/-- Row `r` of the result array is in the block of point `r / 2048`: the 32 blocks cover the array. -/
theorem cover (i : S65536x512.Idx) : ∃ t : Fin cfg0.N, (cfg0.win 3).flush t = true ∧ i ∈ ((cfg0.win 3).blk t).view.set := by
  have hi0 : (i 0).val < 65536 := (i 0).isLt
  have hi1 : (i 1).val < 512 := (i 1).isLt
  have hN : cfg0.N = 32 := N_0
  have hlt : (i 0).val / 2048 < cfg0.N := by omega
  obtain ⟨-, -, -, -, -, -, e0, e1⟩ := idx_facts ⟨(i 0).val / 2048, hlt⟩
  refine ⟨⟨(i 0).val / 2048, hlt⟩, flush0_3 _, ?_⟩
  rw [mem_blk]
  intro a
  match a with
  | ⟨0, _⟩ =>
    show win0_3.index ⟨(i 0).val / 2048, hlt⟩ (0 : Fin 2) * 2048 ≤ (i 0).val ∧ (i 0).val < win0_3.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_3.index ⟨(i 0).val / 2048, hlt⟩ (1 : Fin 2) * 512 ≤ (i 1).val ∧ (i 1).val < win0_3.index ⟨(i 0).val / 2048, hlt⟩ (1 : Fin 2) * 512 + 512
    rw [e1]; omega

/-- THE RESULT ARRAY after the run is `softAssign` of the argument arrays, when their entries are real. -/
theorem final (c : Dev nD) (hx : ∀ i, xarr m c i ≠ ⊤ ∧ xarr m c i ≠ ⊥) (hc : ∀ i, carr m c i ≠ ⊤ ∧ carr m c i ≠ ⊥) :
    (dats m 0 c).arrAt 3 cfg0.N = softAssign (xarr m c) (carr m c) :=
  (dats m 0 c).arrAt_eq_of_cover 3 (softAssign (xarr m c) (carr m c)) (fun t _ => flushed_eq m c hx hc t) cover

/-- The run, read: the result array at `softAssign` of the arguments, the arguments unchanged. -/
theorem run (hfin : ∀ c : Dev nD, (∀ i, xarr m c i ≠ ⊤ ∧ xarr m c i ≠ ⊥) ∧ (∀ i, carr m c i ≠ ⊤ ∧ carr m c i ≠ ⊥)) :
    θ_run defs (onTc (τ := τ) (main (F := Ideal))) ⟨m, fun _ => 0, ρ⟩ fun r => ∀ c : Dev nD,
      r.2.mem ((c : Thread nD τ).loc main_v9) = softAssign (xarr m c) (carr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c).1 (hfin c).2), (h c).2⟩)
    (run_blocks m ρ)

end Cert.KernelValue

end
-- ==== Proof.lean ====
/- The soft cluster assignment: for each data row `x_r` and centroid `c_q` the Student-t weight
   `1 / (1 + |x_r − c_q|²)`, divided by the sum of the row's weights.

   The reference computes `1 + ((|x_r|² + |c_q|²) − 2·⟨x_r, c_q⟩)`, the weight, the row sum and the quotient.
   The kernel prepares, on the host, the table doubled and the row `1 + |c_q|²`; its body, on blocks of 2048 data
   rows, forms `(|x_r|² + (1 + |c_q|²)) − ⟨x_r, 2·c_q⟩`, clamps it below at one, takes the weight, sums the row and
   multiplies by the reciprocal of the sum. On finite inputs every quantity is a real number, both spellings of
   one plus the squared distance are `1 + Σ (x − c)²  ≥ 1` (so the clamp is idle), the row sum is a positive
   real, and the product with its reciprocal is the quotient (Proof/DistanceLaw.lean). The precondition gives
   the finiteness (Proof/FiniteInputs.lean); the reference's result is read index by index
   (Proof/ReferenceValue.lean); the kernel body's store, the host-prepared arrays, the blocks and their cover
   are read in Proof/BodyValue.lean and Proof/KernelValue.lean. The idealization rewrote no operation, so the
   kernel is its own idealization and `preserves` has nothing to state. -/
import proofs.«413219_j71279277244876_3_alg».proof.Defs
import proofs.«413219_j71279277244876_3_alg».proof.Proof.Gen.Kernel
import proofs.«413219_j71279277244876_3_alg».proof.Proof.Gen.Kernel.Skeleton
import proofs.«413219_j71279277244876_3_alg».proof.Proof.Gen.Kernel.Launch
import proofs.«413219_j71279277244876_3_alg».proof.Proof.Gen.Kernel.Points
import proofs.«413219_j71279277244876_3_alg».proof.Proof.Gen.Kernel.Frame
import proofs.«413219_j71279277244876_3_alg».proof.Proof.Gen.KernelIdeal
import proofs.«413219_j71279277244876_3_alg».proof.Proof.Gen.KernelIdeal.Skeleton
import proofs.«413219_j71279277244876_3_alg».proof.Proof.Gen.KernelIdeal.Launch
import proofs.«413219_j71279277244876_3_alg».proof.Proof.Gen.KernelIdeal.Points
import proofs.«413219_j71279277244876_3_alg».proof.Proof.Gen.KernelIdeal.Frame
import proofs.«413219_j71279277244876_3_alg».proof.Proof.Gen.ReferenceIdeal
import proofs.«413219_j71279277244876_3_alg».proof.Proof.Gen.Pre_finite_inputs
import proofs.«413219_j71279277244876_3_alg».proof.Proof.Gen.KernelIdeal.Value
import proofs.«413219_j71279277244876_3_alg».proof.Proof.Gen.ReferenceIdeal.Run
import proofs.«413219_j71279277244876_3_alg».proof.Proof.Gen.ReferenceIdeal.Read
import proofs.«413219_j71279277244876_3_alg».proof.Proof.FiniteInputs
import proofs.«413219_j71279277244876_3_alg».proof.Proof.ReferenceValue
import proofs.«413219_j71279277244876_3_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On finite inputs both programs end with the soft assignment of the two argument arrays. -/
theorem algebraic : Cert.algebraic_KernelIdeal_ReferenceIdeal := by
  intro m ρ m' ρ' hpre hagree
  have hfin := fun c => Cert.FiniteInputs.finite_of_pre _ _ (hpre c)
  refine ⟨fun c => Cert.DistanceLaw.softAssign (Cert.KernelValue.xarr m c) (Cert.KernelValue.carr m c),
    Cert.KernelValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
